-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x1024 : Shape := ⟨2, ![4096, 1024]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S64x4096 .f32) (main_arg1 : FVec F S4096x1024 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S64x4096 : Shape := ⟨2, ![64, 4096]⟩
abbrev S4096x1024 : Shape := ⟨2, ![4096, 1024]⟩
abbrev S4096x64 : Shape := ⟨2, ![4096, 64]⟩
abbrev S1024x1024 : Shape := ⟨2, ![1024, 1024]⟩
abbrev S1024x64 : Shape := ⟨2, ![1024, 64]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S64x4096, .f32⟩
  | .hbm, ⟨1, _⟩ => ⟨S4096x1024, .f32⟩
  | .hbm, ⟨2, _⟩ => ⟨S4096x64, .f32⟩
  | .hbm, ⟨3, _⟩ => ⟨S4096x64, .f32⟩
  | .hbm, ⟨4, _⟩ => ⟨S64x4096, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x4096_S4096x64_1_0 : S64x4096.Transposes [1, 0] S4096x64
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1024x1_S1024x64 : S1024x1.Broadcasts S1024x64
  transposes_S4096x64_S64x4096_1_0 : S4096x64.Transposes [1, 0] S64x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S4096x64.size a
  hwx0_2 : ∀ i : grid0.Coords, EltTy.bits .f32 = 32 ∨ (Rect.block (s := S4096x64) S1024x64.size (cc0_transform_2 i) (hinb0_2 i)).WholeWords (EltTy.packing .f32)

variable [Facts₀]

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x1024 : Shape := ⟨2, ![4096, 1024]⟩
abbrev S_ : Shape := ⟨0, ![]⟩
abbrev S64x4096x1 : Shape := ⟨3, ![64, 4096, 1]⟩
abbrev S1x4096x1024 : Shape := ⟨3, ![1, 4096, 1024]⟩
abbrev S64x4096x1024 : Shape := ⟨3, ![64, 4096, 1024]⟩

abbrev nBuf : Space → Nat
  | .hbm => 17
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S64x4096x1, .f32⟩
  | .hbm, ⟨11, _⟩ => ⟨S1x4096x1024, .f32⟩
  | .hbm, ⟨12, _⟩ => ⟨S64x4096x1024, .f32⟩
  | .hbm, ⟨13, _⟩ => ⟨S64x4096x1024, .f32⟩
  | .hbm, ⟨14, _⟩ => ⟨S64x4096x1024, .f32⟩
  | .hbm, ⟨15, _⟩ => ⟨S_, .f32⟩
  | .hbm, ⟨16, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S64x4096_S64x4096x1_0_1 : S64x4096.BroadcastsInDim S64x4096x1 (![0, 1] : Fin 2 → Fin S64x4096x1.rank)
  bcast_S4096x1024_S1x4096x1024_1_2 : S4096x1024.BroadcastsInDim S1x4096x1024 (![1, 2] : Fin 2 → Fin S1x4096x1024.rank)
  bcast_S64x4096x1_S64x4096x1024_0_1_2 : S64x4096x1.BroadcastsInDim S64x4096x1024 (![0, 1, 2] : Fin 3 → Fin S64x4096x1024.rank)
  bcast_S1x4096x1024_S64x4096x1024_0_1_2 : S1x4096x1024.BroadcastsInDim S64x4096x1024 (![0, 1, 2] : Fin 3 → Fin S64x4096x1024.rank)
  reducesTo_S64x4096x1024_S64x4096_d2 : S64x4096x1024.ReducesTo [2] S64x4096
  h_S_ : 0 < S_.numel

variable [Facts₀]

class Facts : Prop extends Facts₀ where

variable [Facts]
-- ==== Proof.LibFoldMono.lean ====
/-
  General facts about a running maximum or minimum over a finite nonempty index set, on the extended reals.

  * A maximum taken from `⊥` (a minimum taken from `⊤`) over a nonempty set is attained at some index.
  * Hence a monotone map commutes with the maximum, and an antitone map turns the minimum of the arguments into
    the maximum of the images.
  * The logistic function `1 / (1 + e^(-x))`, with its limits `0` at `⊥` and `1` at `⊤`, is monotone on the whole
    extended line; multiplication by a fixed `x` is monotone when `0 ≤ x` and antitone when `x ≤ 0`.
  * Together: `max_k (x · σ(a_k))` is `x · σ(max_k a_k)` for `0 ≤ x` and `x · σ(min_k a_k)` for `x < 0`, with no
    finiteness assumption on `x` or on the `a_k`.
  * The binary32 words of `1`, `-∞` and `+∞` read as extended reals.
-/
import Idealize.ShloMosaic.PureOps.Ideal
import Idealize.ShloMosaic.PureOps.Ideal.Laws

namespace Idealize.ShloMosaic.FoldMono

variable {ι : Type}

/-- A maximum from `⊥` over a nonempty set is attained: some member's value is at least the whole maximum. -/
theorem exists_fold_max_le (s : Finset ι) (hs : s.Nonempty) (f : ι → EReal) :
    ∃ k ∈ s, s.fold max ⊥ f ≤ f k := by
  rcases (Finset.le_fold_max (s := s) (f := f) (b := ⊥) (s.fold max ⊥ f)).mp le_rfl with h | ⟨k, hk, h⟩
  · obtain ⟨k, hk⟩ := hs
    exact ⟨k, hk, h.trans bot_le⟩
  · exact ⟨k, hk, h⟩

/-- A minimum from `⊤` over a nonempty set is attained: some member's value is at most the whole minimum. -/
theorem exists_le_fold_min (s : Finset ι) (hs : s.Nonempty) (f : ι → EReal) :
    ∃ k ∈ s, f k ≤ s.fold min ⊤ f := by
  rcases (Finset.fold_min_le (s := s) (f := f) (b := ⊤) (s.fold min ⊤ f)).mp le_rfl with h | ⟨k, hk, h⟩
  · obtain ⟨k, hk⟩ := hs
    exact ⟨k, hk, le_top.trans h⟩
  · exact ⟨k, hk, h⟩

/-- Every member is below the maximum. -/
theorem le_fold_max_of_mem (s : Finset ι) (f : ι → EReal) {k : ι} (hk : k ∈ s) : f k ≤ s.fold max ⊥ f :=
  (Finset.le_fold_max (f k)).mpr (Or.inr ⟨k, hk, le_rfl⟩)

/-- The minimum is below every member. -/
theorem fold_min_le_of_mem (s : Finset ι) (f : ι → EReal) {k : ι} (hk : k ∈ s) : s.fold min ⊤ f ≤ f k :=
  (Finset.fold_min_le (f k)).mpr (Or.inr ⟨k, hk, le_rfl⟩)

/-- A monotone map commutes with the maximum over a nonempty set. -/
theorem fold_max_comp_of_monotone (s : Finset ι) (hs : s.Nonempty) (f : ι → EReal) (g : EReal → EReal)
    (hg : Monotone g) : s.fold max ⊥ (fun k => g (f k)) = g (s.fold max ⊥ f) := by
  apply le_antisymm
  · rw [Finset.fold_max_le]
    exact ⟨bot_le, fun k hk => hg (le_fold_max_of_mem s f hk)⟩
  · obtain ⟨k, hk, h⟩ := exists_fold_max_le s hs f
    exact (hg h).trans (le_fold_max_of_mem s (fun k => g (f k)) hk)

/-- An antitone map sends the minimum of the arguments to the maximum of the images, over a nonempty set. -/
theorem fold_max_comp_of_antitone (s : Finset ι) (hs : s.Nonempty) (f : ι → EReal) (g : EReal → EReal)
    (hg : Antitone g) : s.fold max ⊥ (fun k => g (f k)) = g (s.fold min ⊤ f) := by
  apply le_antisymm
  · rw [Finset.fold_max_le]
    exact ⟨bot_le, fun k hk => hg (fold_min_le_of_mem s f hk)⟩
  · obtain ⟨k, hk, h⟩ := exists_le_fold_min s hs f
    exact (hg h).trans (le_fold_max_of_mem s (fun k => g (f k)) hk)

/-! ## The logistic function on the extended line -/

theorem logistic_nonneg (a : EReal) : 0 ≤ Ideal.logistic a := by
  induction a using EReal.rec with
  | bot => rw [Ideal.logistic_bot]
  | coe r =>
    rw [Ideal.logistic_coe]
    have : (0 : ℝ) ≤ (1 + Real.exp (-r))⁻¹ := inv_nonneg.mpr (by positivity)
    exact_mod_cast this
  | top => rw [Ideal.logistic_top]; exact zero_le_one

theorem logistic_le_one (a : EReal) : Ideal.logistic a ≤ 1 := by
  induction a using EReal.rec with
  | bot => rw [Ideal.logistic_bot]; exact zero_le_one
  | coe r =>
    rw [Ideal.logistic_coe]
    have h1 : (1 : ℝ) ≤ 1 + Real.exp (-r) := le_add_of_nonneg_right (Real.exp_pos _).le
    have : (1 + Real.exp (-r))⁻¹ ≤ (1 : ℝ) := inv_le_one_of_one_le₀ h1
    exact_mod_cast this
  | top => rw [Ideal.logistic_top]

/-- `1 / (1 + e^(-x))` is monotone on the whole extended line: on the reals because `e^(-x)` decreases, and its
    limits `0` and `1` bound every real value. -/
theorem logistic_monotone : Monotone Ideal.logistic := by
  intro a b hab
  induction a using EReal.rec with
  | bot => rw [Ideal.logistic_bot]; exact logistic_nonneg b
  | coe r =>
    induction b using EReal.rec with
    | bot => exact absurd hab (by simp)
    | coe r' =>
      rw [Ideal.logistic_coe, Ideal.logistic_coe]
      have hr : r ≤ r' := by exact_mod_cast hab
      have hpos : (0 : ℝ) < 1 + Real.exp (-r') := by positivity
      have hle : 1 + Real.exp (-r') ≤ 1 + Real.exp (-r) := by
        have := Real.exp_le_exp.mpr (neg_le_neg hr)
        linarith
      have : (1 + Real.exp (-r))⁻¹ ≤ (1 + Real.exp (-r'))⁻¹ := inv_anti₀ hpos hle
      exact_mod_cast this
    | top => rw [Ideal.logistic_top]; exact logistic_le_one _
  | top =>
    rw [top_le_iff.mp hab]

/-! ## Scaling by a fixed factor -/

theorem mul_left_monotone {x : EReal} (hx : 0 ≤ x) : Monotone (fun y : EReal => x * y) :=
  fun _ _ h => mul_le_mul_of_nonneg_left h hx

theorem mul_left_antitone {x : EReal} (hx : x ≤ 0) : Antitone (fun y : EReal => x * y) := by
  intro a b h
  have hx' : 0 ≤ -x := by
    have := EReal.neg_le_neg_iff.mpr hx
    simpa using this
  have h1 : -x * a ≤ -x * b := mul_le_mul_of_nonneg_left h hx'
  have e : ∀ y : EReal, x * y = -(-x * y) := fun y => by rw [EReal.neg_mul, neg_neg]
  show x * b ≤ x * a
  rw [e a, e b]
  exact EReal.neg_le_neg_iff.mpr h1

/-- THE LAW: the maximum over `k` of `x · σ(a_k)` is `x · σ` of the LARGEST `a_k` when `0 ≤ x`, and of the SMALLEST
    `a_k` when `x < 0` — on the extended reals, for any values. -/
theorem fold_max_scaled_logistic (s : Finset ι) (hs : s.Nonempty) (x : EReal) (a : ι → EReal) :
    s.fold max ⊥ (fun k => x * Ideal.logistic (a k))
      = if 0 ≤ x then x * Ideal.logistic (s.fold max ⊥ a) else x * Ideal.logistic (s.fold min ⊤ a) := by
  by_cases hx : 0 ≤ x
  · rw [if_pos hx]
    exact fold_max_comp_of_monotone s hs a (fun y => x * Ideal.logistic y)
      ((mul_left_monotone hx).comp logistic_monotone)
  · rw [if_neg hx]
    exact fold_max_comp_of_antitone s hs a (fun y => x * Ideal.logistic y)
      ((mul_left_antitone (not_le.mp hx).le).comp_monotone logistic_monotone)

/-! ## Three binary32 words -/

theorem ofBits_one_f32 : Ideal.ofBits .f32 0x3F800000#32 = 1 := by
  simp [Ideal.ofBits, Ideal.ieee, -EReal.coe_mul]; norm_num
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]

end Idealize.ShloMosaic.FoldMono
-- ==== Proof.Spec.lean ====
/-
  The function both programs compute, stated once over the two argument arrays.

  For `x : [64, 4096]` and `A : [4096, 1024]` the result at `(b, i)` depends on the scalar `x[b, i]` and on row `i`
  of `A` only: it is `x[b, i] · σ(max_k A[i, k])` when `0 ≤ x[b, i]` and `x[b, i] · σ(min_k A[i, k])` otherwise, with
  `σ(y) = 1 / (1 + e^(-y))`. This is also `max_k (x[b, i] · σ(A[i, k]))`: scaling by a
  non-negative factor and `σ` are monotone, so the maximum moves inside; a negative factor reverses the order, so
  the maximum of the products is the product with the minimum.
-/
import proofs.«107635_j17334488006868_2_alg».proof.Proof.LibFoldMono
import Idealize.ShloMosaic.Lib.ValueIdx

noncomputable section

namespace Cert.Spec

open Idealize.ShloMosaic Idealize.ShloMosaic.ValueIdx Idealize.ShloMosaic.FoldMono

/-- One output element from its scalar `x` and its row `a` of 1024 entries: `x · σ` of the row's largest entry when
    `0 ≤ x`, of its smallest entry when `x < 0`. -/
def scaledRow (x : EReal) (a : Fin 1024 → EReal) : EReal :=
  if 0 ≤ x then x * Ideal.logistic (Finset.univ.fold max ⊥ a) else x * Ideal.logistic (Finset.univ.fold min ⊤ a)

/-- The largest of the 1024 products `x · σ(a_k)`, taken from `-∞`, is that element. -/
theorem fold_max_eq_scaledRow (x : EReal) (a : Fin 1024 → EReal) :
    (Finset.univ : Finset (Fin 1024)).fold max ⊥ (fun k => x * Ideal.logistic (a k)) = scaledRow x a :=
  fold_max_scaled_logistic Finset.univ Finset.univ_nonempty x a

/-- The whole result, index by index: element `(b, i)` from `x[b, i]` and row `i` of `A`. -/
def result (x : (⟨2, ![64, 4096]⟩ : Shape).Idx → EReal) (A : (⟨2, ![4096, 1024]⟩ : Shape).Idx → EReal) :
    (⟨2, ![64, 4096]⟩ : Shape).Idx → EReal :=
  fun i => scaledRow (x i) (fun k => A (ix2 (⟨(i 1).val, (i 1).isLt⟩ : Fin 4096) k))

theorem result_apply (x : (⟨2, ![64, 4096]⟩ : Shape).Idx → EReal) (A : (⟨2, ![4096, 1024]⟩ : Shape).Idx → EReal)
    (b : Fin 64) (i : Fin 4096) : result x A (ix2 b i) = scaledRow (x (ix2 b i)) (fun k => A (ix2 i k)) := rfl

end Cert.Spec

end
-- ==== Proof.Payload.lean ====
/-
  The kernel body's stored value, read at one index of its [1024, 64] block.

  The body holds a [1024, 1024] block `a` of `A` (1024 rows, all 1024 columns) and a [1024, 64] block `xt` of the
  transposed `x`. Per row `p` it takes the row's largest and smallest entry of `a` (a lane reduction from `-∞`,
  resp. `+∞`), applies `σ` to both as [1024, 1] columns, broadcasts each column along the 64 lanes, multiplies by
  `xt` and selects by the sign test `0 ≤ xt`. At `(p, q)` that is the specification's element of the scalar
  `xt[p, q]` and row `p` of `a`.
-/
import proofs.«107635_j17334488006868_2_alg».proof.Proof.Gen.KernelIdeal.Skeleton
import proofs.«107635_j17334488006868_2_alg».proof.Proof.Spec
import Idealize.ShloMosaic.Lib.ValueIdx
import Idealize.ShloMosaic.Lib.Pipeline.Value
import Idealize.ShloMosaic.PureOps.Ideal.Laws

noncomputable section

namespace Cert.KernelIdeal.RowValue

open Idealize.ShloMosaic Idealize.ShloMosaic.ValueIdx Idealize.ShloMosaic.FoldMono
open Cert.KernelIdeal Cert.KernelIdeal.Gen Cert.Spec

variable [Facts]
open Facts₀ Facts

/-- Row `p`'s lane maximum from `-∞`: the largest of the row's 1024 entries. -/
theorem rowMax_apply (a : FVec Ideal S1024x1024 .f32) (h : S1024x1024.Reduces [1] S1024) (hφ : FKind.Formats .f32)
    (hacc : (0xFF800000#32 : BitVec (FTy.f32).bits) = FKind.maximumf.neutral .f32 hφ) (p : Fin 1024) :
    multiReduction .maximumf [1] S1024 a 0xFF800000#32 h hφ hacc (ix1 p)
      = (Finset.univ : Finset (Fin 1024)).fold max ⊥ (fun k => a (ix2 p k)) := by
  refine (Ideal.multiReduction_maximumf_single a 0xFF800000#32 h hφ hacc (ix1 p)).trans ?_
  have e : (a ∘ h.lift (ix1 p)) = fun k => a (ix2 p k) :=
    funext fun k => congrArg a (funext fun c => Fin.ext (match c with | ⟨0, _⟩ => rfl | ⟨1, _⟩ => rfl))
  rw [Ideal.ofBits_def, ofBits_neg_inf_f32, e]
  rfl

/-- Row `p`'s lane minimum from `+∞`: the smallest of the row's 1024 entries. -/
theorem rowMin_apply (a : FVec Ideal S1024x1024 .f32) (h : S1024x1024.Reduces [1] S1024) (hφ : FKind.Formats .f32)
    (hacc : (0x7F800000#32 : BitVec (FTy.f32).bits) = FKind.minimumf.neutral .f32 hφ) (p : Fin 1024) :
    multiReduction .minimumf [1] S1024 a 0x7F800000#32 h hφ hacc (ix1 p)
      = (Finset.univ : Finset (Fin 1024)).fold min ⊤ (fun k => a (ix2 p k)) := by
  refine (multiReduction_minimumf_eq_fold a 0x7F800000#32 h hφ hacc (ix1 p)).trans ?_
  refine (h.fold_filter_drop_single _ _ a (ix1 p)).trans ?_
  have e : (a ∘ h.lift (ix1 p)) = fun k => a (ix2 p k) :=
    funext fun k => congrArg a (funext fun c => Fin.ext (match c with | ⟨0, _⟩ => rfl | ⟨1, _⟩ => rfl))
  rw [Ideal.ofBits_def, ofBits_pos_inf_f32, e]
  rfl

/-- A [1024, 1] column broadcast along 64 lanes reads, at `(p, q)`, the column's entry `p`. -/
theorem bcastCol_apply {α : Type} (w : S1024x1.Idx → α) (hb : S1024x1.Broadcasts S1024x64) (p : Fin 1024) (q : Fin 64) :
    broadcastTo S1024x64 w hb (ix2 p q) = w (ix2 p (0 : Fin 1)) :=
  broadcastTo_apply w hb (ix2 p q) (ix2 p (0 : Fin 1)) (fun c => match c with
    | ⟨0, _⟩ => by show p.val = if (1024 : Nat) = 1 then 0 else p.val; rw [if_neg (by decide)]
    | ⟨1, _⟩ => by show 0 = if (1 : Nat) = 1 then 0 else q.val; rw [if_pos rfl])

/-- A length-1024 vector cast to a [1024, 1] column reads, at `(p, 0)`, the vector's entry `p`. -/
theorem castCol_apply {α : Type} (v : S1024.Idx → α) (hc : S1024.ShapeCasts S1024x1) (p : Fin 1024) :
    shapeCast S1024x1 v hc (ix2 p (0 : Fin 1)) = v (ix1 p) :=
  shapeCast_apply v hc (ix2 p (0 : Fin 1)) (ix1 p) (by
    rw [Shape.rowMajor_val_one, Shape.rowMajor_val_two]
    show p.val = p.val * 1 + 0
    omega)

/-- The sign test `0 ≤ x` as the one-bit word the comparison returns. -/
theorem cmp_oge_zero (x : EReal) : Ideal.cmp .oge x 0 = if 0 ≤ x then 1#1 else 0#1 := by
  by_cases h : 0 ≤ x <;> simp [Ideal.cmp, h]

/-- The body's last steps over ANY two length-1024 row vectors `M`, `N`: each cast to a column, passed through `σ`,
    broadcast along the lanes and multiplied by `xt`; the sign test `0 ≤ xt` selects between the two products. -/
theorem select_form (xt : FVec Ideal S1024x64 .f32) (M N : FVec Ideal S1024 .f32) (hs : S1024x64.ShapeCasts S1024x64)
    (hc : S1024.ShapeCasts S1024x1) (hb : S1024x1.Broadcasts S1024x64) (p : Fin 1024) (q : Fin 64) :
    select (cmpf .oge (shapeCast S1024x64 xt hs) (broadcast S1024x64 (FloatOps.ofBits .f32 0x00000000#32)))
        (mulf (shapeCast S1024x64 xt hs) (broadcastTo S1024x64 (logistic (shapeCast S1024x1 M hc)) hb))
        (mulf (shapeCast S1024x64 xt hs) (broadcastTo S1024x64 (logistic (shapeCast S1024x1 N hc)) hb)) (ix2 p q)
      = if 0 ≤ xt (ix2 p q) then xt (ix2 p q) * Ideal.logistic (M (ix1 p)) else xt (ix2 p q) * Ideal.logistic (N (ix1 p)) := by
  rw [shapeCast_self, select_apply, cmpf_apply, mulf_apply, mulf_apply, broadcast_apply, bcastCol_apply, bcastCol_apply]
  unfold logistic
  rw [castCol_apply, castCol_apply, Ideal.cmpf_def, Ideal.ofBits_def, Ideal.ofBits_zero_f32, cmp_oge_zero]
  by_cases h : 0 ≤ xt (ix2 p q)
  · rw [if_pos h, if_pos h, select_one]; rfl
  · rw [if_neg h, if_neg h, select_zero]; rfl

/-- THE STORED VALUE AT `(p, q)`: the specification's element of the scalar `xt[p, q]` and row `p` of `a`. The two lane
    reductions are row `p`'s largest and smallest entry of `a`, and the sign test on `xt[p, q]` selects the product
    with `σ` of the one or of the other. -/
theorem pay_apply (a : FVec Ideal S1024x1024 .f32) (xt : FVec Ideal S1024x64 .f32) (p : Fin 1024) (q : Fin 64) :
    k0_pay1 (F := Ideal) a xt (ix2 p q) = scaledRow (xt (ix2 p q)) (fun k => a (ix2 p k)) := by
  unfold k0_pay1
  dsimp only
  refine (select_form xt _ _ _ _ _ p q).trans ?_
  unfold scaledRow
  exact if_congr Iff.rfl
    (congrArg (fun y => xt (ix2 p q) * Ideal.logistic y) (rowMax_apply a _ _ _ p))
    (congrArg (fun y => xt (ix2 p q) * Ideal.logistic y) (rowMin_apply a _ _ _ p))

end Cert.KernelIdeal.RowValue

end
-- ==== Proof.Blocks.lean ====
/-
  From the body's stored block to the pallas_call's whole result.

  The grid has four points; point `t` holds rows `1024 t … 1024 t + 1023` of `A` (all 1024 columns) and the same rows
  of the transposed `x` (all 64 columns), and writes the same rows of the [4096, 64] result. So element `(i, b)` of
  the result is the specification's element of the scalar `xT[i, b]` and row `i` of `A`, whichever point wrote it, and
  the four row bands tile the result.
-/
import proofs.«107635_j17334488006868_2_alg».proof.Proof.Gen.KernelIdeal.Frame
import proofs.«107635_j17334488006868_2_alg».proof.Proof.Payload
import Idealize.ShloMosaic.Lib.Pipeline.Value

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.RowValue Cert.Spec

variable (m : (ℓ : Loc nD τ sig) → Buf (Elt Ideal) ℓ)

/-- The body's accesses start at the block's origin. -/
theorem origin_eq : (![0, 0] : Fin 2 → Nat) = fun _ => 0 := funext fun a => by fin_cases a <;> rfl

/-- The pallas_call's [4096, 64] result as one function of `A : [4096, 1024]` and the transposed input
    `xT : [4096, 64]`: element `(i, b)` from the scalar `xT[i, b]` and row `i` of `A`. -/
def rows (A : S4096x1024.Idx → EReal) (xT : S4096x64.Idx → EReal) : S4096x64.Idx → EReal :=
  fun j => scaledRow (xT j) (fun k => A (ix2 (⟨(j 0).val, (j 0).isLt⟩ : Fin 4096) k))

theorem rows_apply (A : S4096x1024.Idx → EReal) (xT : S4096x64.Idx → EReal) (i : Fin 4096) (b : Fin 64) :
    rows A xT (ix2 i b) = scaledRow (xT (ix2 i b)) (fun k => A (ix2 i k)) := rfl

/-- The three index maps over the grid: every window moves down the rows with the point and stays at column
    block 0; there are four row bands. -/
theorem band_index : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 3 :=
  (by decide +kernel : ∀ t : Fin grid0.N, _)

/-- Every row band is some point's. -/
theorem band_onto : ∀ r : Fin 4, ∃ t : Fin cfg0.N, win0_2.index t = ![r.val, 0] :=
  (by decide +kernel : ∀ r : Fin 4, ∃ t : Fin grid0.N, win0_2.index t = ![r.val, 0])

/-- WHAT POINT `t` WRITES BACK is its row band of `rows` of the two arrays as the region finds them. -/
theorem written_eq (c : Dev nD) (t : Fin cfg0.N) :
    (dats m 0 c).flushed 2 t = ((cfg0.win 2).blk t).view.read (Elt Ideal) (rows (V m c main_arg1) (V m c main_v0)) := by
  show (cfg0.win 2).cut (grid0.coords t) ((dats m 0 c).after 2 t) = _
  rw [after0_2]
  unfold out0_2
  rw [View.canon_unit_zero origin_eq]
  simp only [View.ld_unit_zero (S := S1024x1024) origin_eq, View.ld_unit_zero (S := S1024x64) origin_eq]
  obtain ⟨e00, e01, e10, e11, e21, -⟩ := band_index t
  funext j
  obtain ⟨p, q, rfl⟩ : ∃ (p : Fin 1024) (q : Fin 64), j = ix2 p q := ⟨j 0, j 1, eq_ix2 j⟩
  refine (pay_apply (iblk m c 0 t) (iblk m c 1 t) p q).trans ?_
  -- the scalar: the two [1024, 64] windows sit at the same rows and columns
  have hx : ((cfg0.win 1).blk t).view.emb (ix2 p q) = ((cfg0.win 2).blk t).view.emb (ix2 p q) := by
    funext a; apply Fin.ext
    match a with
    | ⟨0, _⟩ => show win0_1.index t (0 : Fin 2) * 1024 + 1 * p.val = win0_2.index t (0 : Fin 2) * 1024 + 1 * p.val; omega
    | ⟨1, _⟩ => show win0_1.index t (1 : Fin 2) * 64 + 1 * q.val = win0_2.index t (1 : Fin 2) * 64 + 1 * q.val; omega
  -- the row of `A`: the [1024, 1024] window sits at the same rows, and spans every column
  have hA : ∀ k : Fin 1024, ((cfg0.win 0).blk t).view.emb (ix2 p k)
      = ix2 (⟨((((cfg0.win 2).blk t).view.emb (ix2 p q)) 0).val, ((((cfg0.win 2).blk t).view.emb (ix2 p q)) 0).isLt⟩ : Fin 4096) k := by
    intro k
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  show scaledRow (V m c main_v0 (((cfg0.win 1).blk t).view.emb (ix2 p q)))
        (fun k => V m c main_arg1 (((cfg0.win 0).blk t).view.emb (ix2 p k)))
      = scaledRow (V m c main_v0 (((cfg0.win 2).blk t).view.emb (ix2 p q)))
        (fun k => V m c main_arg1 (ix2 (⟨((((cfg0.win 2).blk t).view.emb (ix2 p q)) 0).val, ((((cfg0.win 2).blk t).view.emb (ix2 p q)) 0).isLt⟩ : Fin 4096) k))
  rw [hx]
  exact congrArg (scaledRow _) (funext fun k => congrArg (V m c main_arg1) (hA k))

/-- An index of the result is in point `t`'s band iff each coordinate is in the band's range on its axis. -/
theorem mem_band (t : Fin cfg0.N) (i : S4096x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v1).slice (win0_2.rect t)).set ↔ _
  rw [View.set_slice_whole, Rect.mem_set_unit]
  exact Iff.rfl

/-- THE BANDS TILE THE RESULT: row `r` is in the band of the point with block index `r / 1024`. -/
theorem covered (i : S4096x64.Idx) :
    ∃ t : Fin cfg0.N, (cfg0.win 2).flush t = true ∧ i ∈ ((cfg0.win 2).blk t).view.set := by
  have hi0 : (i 0).val < 4096 := (i 0).isLt
  have hi1 : (i 1).val < 64 := (i 1).isLt
  obtain ⟨t, ht⟩ := band_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_band]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 64 ≤ (i 1).val ∧ (i 1).val < win0_2.index t (1 : Fin 2) * 64 + 64; omega

/-- THE RESULT ARRAY after the run: `rows` of the two arrays as the region finds them. -/
theorem final (c : Dev nD) : (dats m 0 c).arrAt 2 cfg0.N = rows (V m c main_arg1) (V m c main_v0) :=
  (dats m 0 c).arrAt_eq_of_cover 2 _ (fun t _ => written_eq m c t) covered

end Cert.KernelIdeal.ArrayValue

end
-- ==== Proof.KernelRun.lean ====
/-
  The kernel program's run with its result named.

  Before the region the host transposes `x : [64, 4096]` to `xT : [4096, 64]`; the region leaves the [4096, 64] array
  of the specification's elements of `xT[i, b]` and row `i` of `A`; after the region the host transposes that array
  back. Two transposes cancel on the scalar: the result at `(b, i)` is the specification's element of `x[b, i]` and
  row `i` of `A`.
-/
import proofs.«107635_j17334488006868_2_alg».proof.Proof.Gen.KernelIdeal.Frame
import proofs.«107635_j17334488006868_2_alg».proof.Proof.Blocks
import Idealize.ShloMosaic.Lib.StableHlo.Run
import Idealize.ShloMosaic.Lib.ValueLayout

set_option maxRecDepth 16384

noncomputable section

namespace Cert.KernelIdeal.ArrayValue

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.KernelIdeal.RowValue Cert.Spec

variable (m : (ℓ : Loc nD τ sig) → Buf (Elt Ideal) ℓ) (ρ : Dev nD → PrngReg)

/-- The region finds, in its second operand, the transpose of `x`. -/
theorem entry_xT (c : Dev nD) :
    (V m c main_v0 : S4096x64.Idx → EReal)
      = transpose S4096x64 [1, 0] (m ((c : Thread nD τ).loc main_arg0)) transposes_S64x4096_S4096x64_1_0 := by
  show StableHlo.after hostOps0 (fun b => m (c, b)) (Proc.devRef .tc main_v0) = _
  after_results

/-- After the region the host transposes the region's result. -/
theorem tail_eq (c : Dev nD) :
    Pipeline.afterTail₀ cfgs (dats m) 0 (V0 m) [hostOps1] c main_v2
      = transpose S64x4096 [1, 0] (rows (V m c main_arg1) (V m c main_v0)) transposes_S4096x64_S64x4096_1_0 := by
  unfold Pipeline.afterTail₀
  show StableHlo.after hostOps1 _ (Proc.devRef .tc main_v2) = _
  after_results
  exact congrArg (fun y => transpose S64x4096 [1, 0] y transposes_S4096x64_S64x4096_1_0)
    ((Pipeline.withArrays_arr spec0 launch0.win.arr_inj c _ _ 2).trans (final m c))

/-- THE KERNEL PROGRAM'S RESULT, index by index: the transposes cancel on the scalar, and the row of `A` is read as
    launched. -/
theorem transposed_rows_eq (c : Dev nD) :
    transpose S64x4096 [1, 0] (rows (V m c main_arg1) (V m c main_v0)) transposes_S4096x64_S64x4096_1_0
      = result (m ((c : Thread nD τ).loc main_arg0)) (m ((c : Thread nD τ).loc main_arg1)) := by
  funext j
  obtain ⟨b, i, rfl⟩ : ∃ (b : Fin 64) (i : Fin 4096), j = ix2 b i := ⟨j 0, j 1, eq_ix2 j⟩
  rw [transpose_ix2_apply, rows_apply, result_apply, entry_xT, transpose_ix2_apply, V_main_arg1]

/-- The run: every weakly fair execution terminates with the result array at the specification's function of the
    arguments as launched, and the arguments unchanged. -/
theorem run : θ_run defs (onTc (τ := τ) (main (F := Ideal))) ⟨m, fun _ => 0, ρ⟩ fun r => ∀ c : Dev nD,
      r.2.mem ((c : Thread nD τ).loc main_v2)
          = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans
        ((tail_eq m c).trans (transposed_rows_eq m c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.ArrayValue

end
-- ==== Proof.RefValue.lean ====
/-
  The reference's result is the specification's function of the two argument arrays.

  The reference forms `W = 1 / (1 + e^(-A))` element by element, broadcasts `x` and `W` to [64, 4096, 1024], multiplies
  and takes the maximum over the last axis from `-∞`. At `(b, i, k)` the product is `x[b, i] · σ(A[i, k])`; the
  maximum over `k` of these is the specification's element (`σ` and a non-negative factor are monotone; a negative
  factor reverses the order).
-/
import proofs.«107635_j17334488006868_2_alg».proof.Proof.Gen.ReferenceIdeal.Run
import proofs.«107635_j17334488006868_2_alg».proof.Proof.Gen.ReferenceIdeal.Read
import proofs.«107635_j17334488006868_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.FoldMono
open Cert.ReferenceIdeal Cert.ReferenceIdeal.Gen Cert.ReferenceIdeal.Read Cert.Spec

/-- The reference's spelling of `σ` — one over one plus the exponential of the negation, with `1` the binary32 word
    `0x3F800000` — is the logistic function. -/
theorem sigma_eq (y : EReal) :
    FloatOps.hostDivf (F := Ideal) (φ := .f32) (FloatOps.ofBits .f32 0x3F800000#32)
        (FloatOps.addf (FloatOps.ofBits .f32 0x3F800000#32) (FloatOps.hostUnary .exp (FloatOps.hostNegf y)))
      = Ideal.logistic y := by
  rw [Ideal.ofBits_def, ofBits_one_f32]
  rfl

/-- The product array at `(b, i, k)`: the scalar `x[b, i]` times `σ(A[i, k])`. -/
theorem product_apply (x : FVec Ideal S64x4096 .f32) (A : FVec Ideal S4096x1024 .f32) (b : Fin 64) (i : Fin 4096)
    (k : Fin 1024) : val_main_v10 (F := Ideal) x A (ix3 b i k) = x (ix2 b i) * Ideal.logistic (A (ix2 i k)) := by
  have e1 : idx_main_v6 (idx_main_v8 (ix3 b i k)) = ix2 b i :=
    funext fun a => Fin.ext (by match a with | ⟨0, _⟩ => rfl | ⟨1, _⟩ => rfl)
  have e2 : idx_main_v7 (idx_main_v9 (ix3 b i k)) = ix2 i k :=
    funext fun a => Fin.ext (by match a with | ⟨0, _⟩ => rfl | ⟨1, _⟩ => rfl)
  rw [val_main_v10_apply, val_main_v8_apply, val_main_v6_apply, val_main_v9_apply, val_main_v7_apply, val_main_v5_apply,
    val_main_v4_apply, val_main_cst_0_apply, val_main_v3_apply, val_main_v2_apply, val_main_cst_apply,
    val_main_v1_apply, val_main_v0_apply, e1, e2, sigma_eq]
  rfl

/-- The last axis is the one the reference's maximum runs over. -/
theorem reduces_last : S64x4096x1024.Reduces [2] S64x4096 := by decide

/-- THE REFERENCE'S RESULT, index by index, is the specification's. -/
theorem result_eq (x : FVec Ideal S64x4096 .f32) (A : FVec Ideal S4096x1024 .f32) :
    val_main_v11 (F := Ideal) x A = result x A := by
  funext j
  obtain ⟨b, i, rfl⟩ : ∃ (b : Fin 64) (i : Fin 4096), j = ix2 b i := ⟨j 0, j 1, eq_ix2 j⟩
  have h : S64x4096x1024.Reduces [2] S64x4096 := reduces_last
  unfold val_main_v11
  refine (Host.reduce_eq_fold_single (FloatOps.maximumf (F := Ideal) (φ := .f32)) (val_main_v10 (F := Ideal) x A)
    (val_main_cst_1 (F := Ideal)) reducesTo_S64x4096x1024_S64x4096_d2 h h_S_ (ix2 b i)).trans ?_
  have e : (val_main_v10 (F := Ideal) x A ∘ h.lift (ix2 b i)) = fun k => x (ix2 b i) * Ideal.logistic (A (ix2 i k)) :=
    funext fun k => by
      have hk : h.lift (ix2 b i) k = ix3 b i k :=
        funext fun a => Fin.ext (by match a with | ⟨0, _⟩ => rfl | ⟨1, _⟩ => rfl | ⟨2, _⟩ => rfl)
      show val_main_v10 (F := Ideal) x A (h.lift (ix2 b i) k) = _
      rw [hk]
      exact product_apply x A b i k
  rw [e, val_main_cst_1_apply, Ideal.ofBits_def, ofBits_neg_inf_f32, result_apply, ← fold_max_eq_scaledRow]
  rfl

end Cert.ReferenceIdeal.RefValue

end
-- ==== Proof.lean ====
/-
  `out[b, i] = max_k ( σ(A[i, k]) · x[b, i] )` with `σ(y) = 1 / (1 + e^(-y))`, for `x : [64, 4096]` and
  `A : [4096, 1024]`: a kernel that never forms the 64 × 4096 × 1024 products, against the reference that does.

  The kernel reduces each row of `A` to its largest and its smallest entry, applies `σ` to those two numbers only,
  and returns `x[b, i] · σ(max_k A[i, k])` where `0 ≤ x[b, i]` and `x[b, i] · σ(min_k A[i, k])` elsewhere (it works on
  the transpose of `x`, row bands of 1024 at a time, and transposes the result back). The reference multiplies
  first and takes the maximum over `k` from `-∞`. On the extended reals the two agree for ANY values, finite or
  not: `σ` is monotone with limits `0` and `1`, multiplication by a non-negative factor is monotone and by a
  negative factor antitone, and a maximum over a nonempty finite set is attained — so the maximum of the products
  is the product with `σ` of the largest entry, or of the smallest when the factor is negative. The precondition is
  never opened.

  Both programs are brought to ONE function of the argument arrays (`Cert.Spec.result`): the reference's run by
  reading its operations at an index and its last reduction as a fold over `k`; the kernel's by reading the body's
  stored block at an index, tiling the four row bands into the whole array, and passing through the two host
  transposes. The kernel's idealization rewrote nothing, so `preserves` has no conjunct.
-/
import proofs.«107635_j17334488006868_2_alg».proof.Defs
import proofs.«107635_j17334488006868_2_alg».proof.Proof.Gen.Kernel
import proofs.«107635_j17334488006868_2_alg».proof.Proof.Gen.Kernel.Skeleton
import proofs.«107635_j17334488006868_2_alg».proof.Proof.Gen.Kernel.Launch
import proofs.«107635_j17334488006868_2_alg».proof.Proof.Gen.Kernel.Points
import proofs.«107635_j17334488006868_2_alg».proof.Proof.Gen.Kernel.Frame
import proofs.«107635_j17334488006868_2_alg».proof.Proof.Gen.KernelIdeal
import proofs.«107635_j17334488006868_2_alg».proof.Proof.Gen.KernelIdeal.Skeleton
import proofs.«107635_j17334488006868_2_alg».proof.Proof.Gen.KernelIdeal.Launch
import proofs.«107635_j17334488006868_2_alg».proof.Proof.Gen.KernelIdeal.Points
import proofs.«107635_j17334488006868_2_alg».proof.Proof.Gen.KernelIdeal.Frame
import proofs.«107635_j17334488006868_2_alg».proof.Proof.Gen.ReferenceIdeal
import proofs.«107635_j17334488006868_2_alg».proof.Proof.Gen.ReferenceIdeal.Run
import proofs.«107635_j17334488006868_2_alg».proof.Proof.Gen.ReferenceIdeal.Read
import proofs.«107635_j17334488006868_2_alg».proof.Proof.Gen.Pre_finite_inputs
import proofs.«107635_j17334488006868_2_alg».proof.Proof.KernelRun
import proofs.«107635_j17334488006868_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on `x` and `A` both programs end with the result array at `Cert.Spec.result x A`:
    element `(b, i)` is `x[b, i] · σ` of row `i`'s largest entry of `A` when `0 ≤ x[b, i]`, of its smallest otherwise,
    which is the largest of the products `x[b, i] · σ(A[i, k])`. -/
theorem algebraic : Cert.algebraic_KernelIdeal_ReferenceIdeal := by
  intro m ρ m' ρ' _ hagree
  refine ⟨fun c => Cert.Spec.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefValue.result_eq, (hagree c).1,
    (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
